-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S_ : Shape := ⟨0, ![]⟩

class Facts : Prop where
  bcast_S_S1024x64x1x64 : S_.BroadcastsInDim S1024x64x1x64 (![] : Fin 0 → Fin S1024x64x1x64.rank)
  reducesTo_S1024x64x1x64_S_d0_1_2_3 : S1024x64x1x64.ReducesTo [0, 1, 2, 3] S_
  h_S_ : 0 < S_.numel
  bcast_S_S1024x64x32x64 : S_.BroadcastsInDim S1024x64x32x64 (![] : Fin 0 → Fin S1024x64x32x64.rank)
  reducesTo_S1024x64x32x64_S_d0_1_2_3 : S1024x64x32x64.ReducesTo [0, 1, 2, 3] S_
  bcast_S_S1024x64 : S_.BroadcastsInDim S1024x64 (![] : Fin 0 → Fin S1024x64.rank)
  reducesTo_S1024x64_S_d0_1 : S1024x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x64x1x64 .f32) (main_arg1 : FVec F S1024x64x32x64 .f32) (main_arg2 : FVec F S1024x64x32x64 .f32) (main_arg3 : IVec S1024x64x32 1) (main_arg4 : FVec F S1024x64 .f32) (main_arg5 : FVec F S64x64 .f32) (main_arg6 : FVec F S64 .f32) : IVec S_ 1 :=
  let main_v0 : FVec F S1024x64x1x64 .f32 := Host.absf main_arg0
  let main_cst : FVec F S_ .f32 := constant S_ .f32 0x7F800000#32
  let main_v1 : FVec F S1024x64x1x64 .f32 := broadcastInDim S1024x64x1x64 ![] bcast_S_S1024x64x1x64 main_cst
  let main_v2 : IVec S1024x64x1x64 1 := cmpf .olt main_v0 main_v1
  let main_c : IVec S_ 1 := constantI S_ 1 1#1
  let main_v3 : IVec S_ 1 := (fun x v => Host.reduce IntOp.andi x v reducesTo_S1024x64x1x64_S_d0_1_2_3 h_S_) main_v2 main_c
  let main_v4 : FVec F S1024x64x32x64 .f32 := Host.absf main_arg1
  let main_cst_0 : FVec F S_ .f32 := constant S_ .f32 0x7F800000#32
  let main_v5 : FVec F S1024x64x32x64 .f32 := broadcastInDim S1024x64x32x64 ![] bcast_S_S1024x64x32x64 main_cst_0
  let main_v6 : IVec S1024x64x32x64 1 := cmpf .olt main_v4 main_v5
  let main_c_1 : IVec S_ 1 := constantI S_ 1 1#1
  let main_v7 : IVec S_ 1 := (fun x v => Host.reduce IntOp.andi x v reducesTo_S1024x64x32x64_S_d0_1_2_3 h_S_) main_v6 main_c_1
  let main_v8 : IVec S_ 1 := andi main_v3 main_v7
  let main_v9 : FVec F S1024x64x32x64 .f32 := Host.absf main_arg2
  let main_cst_2 : FVec F S_ .f32 := constant S_ .f32 0x7F800000#32
  let main_v10 : FVec F S1024x64x32x64 .f32 := broadcastInDim S1024x64x32x64 ![] bcast_S_S1024x64x32x64 main_cst_2
  let main_v11 : IVec S1024x64x32x64 1 := cmpf .olt main_v9 main_v10
  let main_c_3 : IVec S_ 1 := constantI S_ 1 1#1
  let main_v12 : IVec S_ 1 := (fun x v => Host.reduce IntOp.andi x v reducesTo_S1024x64x32x64_S_d0_1_2_3 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg5 main_arg6 main_v13 main_v16
-- ==== Kernel.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S1024x64x64 : Shape := ⟨3, ![1024, 64, 64]⟩
abbrev S8x64x1x64 : Shape := ⟨4, ![8, 64, 1, 64]⟩
abbrev S8x64x32x64 : Shape := ⟨4, ![8, 64, 32, 64]⟩
abbrev S8x64 : Shape := ⟨2, ![8, 64]⟩
abbrev S8x64x64 : Shape := ⟨3, ![8, 64, 64]⟩
abbrev S8x1x1x64 : Shape := ⟨4, ![8, 1, 1, 64]⟩
abbrev S8x64x32 : Shape := ⟨3, ![8, 64, 32]⟩
abbrev S8x64x1 : Shape := ⟨3, ![8, 64, 1]⟩
abbrev S8x64x32x1 : Shape := ⟨4, ![8, 64, 32, 1]⟩
abbrev S512x64 : Shape := ⟨2, ![512, 64]⟩
abbrev S1x64 : Shape := ⟨2, ![1, 64]⟩

abbrev nBuf : Space → Nat
  | .hbm => 8
  | .vmem => 12
  | .smem => 0
  | _ => 0

abbrev bufTy : (tb : Table) → Fin (tcTables nBuf tb) → BufTy
  | .hbm, ⟨0, _⟩ => ⟨S1024x64x1x64, .f32⟩
  | .hbm, ⟨1, _⟩ => ⟨S1024x64x32x64, .f32⟩
  | .hbm, ⟨2, _⟩ => ⟨S1024x64x32x64, .f32⟩
  | .hbm, ⟨3, _⟩ => ⟨S1024x64x32, .i1⟩
  | .hbm, ⟨4, _⟩ => ⟨S1024x64, .f32⟩
  | .hbm, ⟨5, _⟩ => ⟨S64x64, .f32⟩
  | .hbm, ⟨6, _⟩ => ⟨S64, .f32⟩
  | .hbm, ⟨7, _⟩ => ⟨S1024x64x64, .f32⟩
  | .local _ .vmem, ⟨0, _⟩ => ⟨S8x64x1x64, .f32⟩
  | .local _ .vmem, ⟨1, _⟩ => ⟨S8x64x1x64, .f32⟩
  | .local _ .vmem, ⟨2, _⟩ => ⟨S8x64x32x64, .f32⟩
  | .local _ .vmem, ⟨3, _⟩ => ⟨S8x64x32x64, .f32⟩
  | .local _ .vmem, ⟨4, _⟩ => ⟨S8x64x32x64, .f32⟩
  | .local _ .vmem, ⟨5, _⟩ => ⟨S8x64x32x64, .f32⟩
  | .local _ .vmem, ⟨6, _⟩ => ⟨S8x64, .f32⟩
  | .local _ .vmem, ⟨7, _⟩ => ⟨S8x64, .f32⟩
  | .local _ .vmem, ⟨8, _⟩ => ⟨S64x64, .f32⟩
  | .local _ .vmem, ⟨9, _⟩ => ⟨S64, .f32⟩
  | .local _ .vmem, ⟨10, _⟩ => ⟨S8x64x64, .f32⟩
  | .local _ .vmem, ⟨11, _⟩ => ⟨S8x64x64, .f32⟩
  | _, _ => ⟨S1024x64x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8x64_S8x64_0_0 : ∀ a, (![0, 0] : Fin 2 → Nat) a + S8x64.size a ≤ S8x64.size a
  h_S8x64 : 0 < S8x64.numel
  shapeCasts_S8x64_S8x1x1x64 : S8x64.ShapeCasts S8x1x1x64
  inb_S8x64x32x64_S8x64x32x64_0_0_0_0 : ∀ a, (![0, 0, 0, 0] : Fin 4 → Nat) a + S8x64x32x64.size a ≤ S8x64x32x64.size a
  h_S8x64x32x64 : 0 < S8x64x32x64.numel
  broadcasts_S8x1x1x64_S8x64x32x64 : S8x1x1x64.Broadcasts S8x64x32x64
  reduces_S8x64x32x64_S8x64x32 : S8x64x32x64.Reduces [3] S8x64x32
  natLt_1_32 : 1 < 32
  reduces_S8x64x32_S8x64 : S8x64x32.Reduces [2] S8x64
  shapeCasts_S8x64_S8x64x1 : S8x64.ShapeCasts S8x64x1
  broadcasts_S8x64x1_S8x64x32 : S8x64x1.Broadcasts S8x64x32
  shapeCasts_S8x64x32_S8x64x32x1 : S8x64x32.ShapeCasts S8x64x32x1
  broadcasts_S8x64x32x1_S8x64x32x64 : S8x64x32x1.Broadcasts S8x64x32x64
  reduces_S8x64x32x64_S8x64x64 : S8x64x32x64.Reduces [2] S8x64x64
  inb_S8x64x1x64_S8x64x1x64_0_0_0_0 : ∀ a, (![0, 0, 0, 0] : Fin 4 → Nat) a + S8x64x1x64.size a ≤ S8x64x1x64.size a
  h_S8x64x1x64 : 0 < S8x64x1x64.numel
  shapeCasts_S8x64x1x64_S8x64x64 : S8x64x1x64.ShapeCasts S8x64x64
  shapeCasts_S8x64x64_S512x64 : S8x64x64.ShapeCasts S512x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S512x64 : S1x64.Broadcasts S512x64
  shapeCasts_S512x64_S8x64x64 : S512x64.ShapeCasts S8x64x64
  inb_S8x64x64_S8x64x64_0_0_0 : ∀ a, (![0, 0, 0] : Fin 3 → Nat) a + S8x64x64.size a ≤ S8x64x64.size a
  h_S8x64x64 : 0 < S8x64x64.numel
  dot_S512x64_S64x64_S512x64_1_1_0_0_n_n_wf : DotDims.WF S512x64 S64x64 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1x64.size a ≤ S1024x64x1x64.size a
  hwx0_0 : ∀ i : grid0.Coords, EltTy.bits .f32 = 32 ∨ (Rect.block (s := S1024x64x1x64) S8x64x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x32x64.size a ≤ S1024x64x32x64.size a
  hwx0_1 : ∀ i : grid0.Coords, EltTy.bits .f32 = 32 ∨ (Rect.block (s := S1024x64x32x64) S8x64x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x32x64.size a ≤ S1024x64x32x64.size a
  hwx0_2 : ∀ i : grid0.Coords, EltTy.bits .f32 = 32 ∨ (Rect.block (s := S1024x64x32x64) S8x64x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S1024x64.size a
  hwx0_3 : ∀ i : grid0.Coords, EltTy.bits .f32 = 32 ∨ (Rect.block (s := S1024x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64x64.size a ≤ S1024x64x64.size a
  hwx0_6 : ∀ i : grid0.Coords, EltTy.bits .f32 = 32 ∨ (Rect.block (s := S1024x64x64) S8x64x64.size (cc0_transform_6 i) (hinb0_6 i)).WholeWords (EltTy.packing .f32)

variable [Facts₀]

def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf

abbrev win0_0 : Pipeline.Window sig grid0 :=
  Pipeline.Window.ofSpec (Memref.whole main_arg0) S8x64x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S1024x1x1x64 : Shape := ⟨4, ![1024, 1, 1, 64]⟩
abbrev S_ : Shape := ⟨0, ![]⟩
abbrev S1024x64x1 : Shape := ⟨3, ![1024, 64, 1]⟩
abbrev S1024x64x32x1 : Shape := ⟨4, ![1024, 64, 32, 1]⟩
abbrev S1024x64x64 : Shape := ⟨3, ![1024, 64, 64]⟩
abbrev S65536x64 : Shape := ⟨2, ![65536, 64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S1024x64x1x64, .f32⟩
  | .hbm, ⟨1, _⟩ => ⟨S1024x64x32x64, .f32⟩
  | .hbm, ⟨2, _⟩ => ⟨S1024x64x32x64, .f32⟩
  | .hbm, ⟨3, _⟩ => ⟨S1024x64x32, .i1⟩
  | .hbm, ⟨4, _⟩ => ⟨S1024x64, .f32⟩
  | .hbm, ⟨5, _⟩ => ⟨S64x64, .f32⟩
  | .hbm, ⟨6, _⟩ => ⟨S64, .f32⟩
  | .hbm, ⟨7, _⟩ => ⟨S1024x1x1x64, .f32⟩
  | .hbm, ⟨8, _⟩ => ⟨S1024x64x32x64, .f32⟩
  | .hbm, ⟨9, _⟩ => ⟨S1024x64x32x64, .f32⟩
  | .hbm, ⟨10, _⟩ => ⟨S_, .f32⟩
  | .hbm, ⟨11, _⟩ => ⟨S1024x64x32, .f32⟩
  | .hbm, ⟨12, _⟩ => ⟨S1024x64x32, .f32⟩
  | .hbm, ⟨13, _⟩ => ⟨S_, .f32⟩
  | .hbm, ⟨14, _⟩ => ⟨S1024x64x32, .f32⟩
  | .hbm, ⟨15, _⟩ => ⟨S1024x64x32, .i1⟩
  | .hbm, ⟨16, _⟩ => ⟨S1024x64x32, .f32⟩
  | .hbm, ⟨17, _⟩ => ⟨S1024x64x32, .f32⟩
  | .hbm, ⟨18, _⟩ => ⟨S_, .f32⟩
  | .hbm, ⟨19, _⟩ => ⟨S1024x64, .f32⟩
  | .hbm, ⟨20, _⟩ => ⟨S1024x64x1, .f32⟩
  | .hbm, ⟨21, _⟩ => ⟨S_, .f32⟩
  | .hbm, ⟨22, _⟩ => ⟨S1024x64x1, .f32⟩
  | .hbm, ⟨23, _⟩ => ⟨S1024x64x1, .i1⟩
  | .hbm, ⟨24, _⟩ => ⟨S_, .f32⟩
  | .hbm, ⟨25, _⟩ => ⟨S1024x64x1, .f32⟩
  | .hbm, ⟨26, _⟩ => ⟨S1024x64x1, .f32⟩
  | .hbm, ⟨27, _⟩ => ⟨S1024x64x32, .f32⟩
  | .hbm, ⟨28, _⟩ => ⟨S1024x64x32, .f32⟩
  | .hbm, ⟨29, _⟩ => ⟨S1024x64x32x1, .f32⟩
  | .hbm, ⟨30, _⟩ => ⟨S1024x64x32x64, .f32⟩
  | .hbm, ⟨31, _⟩ => ⟨S1024x64x32x64, .f32⟩
  | .hbm, ⟨32, _⟩ => ⟨S_, .f32⟩
  | .hbm, ⟨33, _⟩ => ⟨S1024x64x64, .f32⟩
  | .hbm, ⟨34, _⟩ => ⟨S1024x64x1x64, .f32⟩
  | .hbm, ⟨35, _⟩ => ⟨S1024x64x1x64, .f32⟩
  | .hbm, ⟨36, _⟩ => ⟨S65536x64, .f32⟩
  | .hbm, ⟨37, _⟩ => ⟨S64x64, .f32⟩
  | .hbm, ⟨38, _⟩ => ⟨S65536x64, .f32⟩
  | .hbm, ⟨39, _⟩ => ⟨S1x64, .f32⟩
  | .hbm, ⟨40, _⟩ => ⟨S65536x64, .f32⟩
  | .hbm, ⟨41, _⟩ => ⟨S65536x64, .f32⟩
  | .hbm, ⟨42, _⟩ => ⟨S1024x64x64, .f32⟩
  | .hbm, ⟨43, _⟩ => ⟨S_, .f32⟩
  | .hbm, ⟨44, _⟩ => ⟨S1024x64x64, .f32⟩
  | .hbm, ⟨45, _⟩ => ⟨S1024x64x64, .f32⟩
  | _, _ => ⟨S1024x64x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S1024x64_S1024x1x1x64_0_3 : S1024x64.BroadcastsInDim S1024x1x1x64 (![0, 3] : Fin 2 → Fin S1024x1x1x64.rank)
  bcast_S1024x1x1x64_S1024x64x32x64_0_1_2_3 : S1024x1x1x64.BroadcastsInDim S1024x64x32x64 (![0, 1, 2, 3] : Fin 4 → Fin S1024x64x32x64.rank)
  reducesTo_S1024x64x32x64_S1024x64x32_d3 : S1024x64x32x64.ReducesTo [3] S1024x64x32
  h_S_ : 0 < S_.numel
  bcast_S_S1024x64x32 : S_.BroadcastsInDim S1024x64x32 (![] : Fin 0 → Fin S1024x64x32.rank)
  reducesTo_S1024x64x32_S1024x64_d2 : S1024x64x32.ReducesTo [2] S1024x64
  bcast_S1024x64_S1024x64x1_0_1 : S1024x64.BroadcastsInDim S1024x64x1 (![0, 1] : Fin 2 → Fin S1024x64x1.rank)
  bcast_S_S1024x64x1 : S_.BroadcastsInDim S1024x64x1 (![] : Fin 0 → Fin S1024x64x1.rank)
  bcast_S1024x64x1_S1024x64x32_0_1_2 : S1024x64x1.BroadcastsInDim S1024x64x32 (![0, 1, 2] : Fin 3 → Fin S1024x64x32.rank)
  bcast_S1024x64x32_S1024x64x32x1_0_1_2 : S1024x64x32.BroadcastsInDim S1024x64x32x1 (![0, 1, 2] : Fin 3 → Fin S1024x64x32x1.rank)
  bcast_S1024x64x32x1_S1024x64x32x64_0_1_2_3 : S1024x64x32x1.BroadcastsInDim S1024x64x32x64 (![0, 1, 2, 3] : Fin 4 → Fin S1024x64x32x64.rank)
  reducesTo_S1024x64x32x64_S1024x64x64_d2 : S1024x64x32x64.ReducesTo [2] S1024x64x64
  bcast_S1024x64x64_S1024x64x1x64_0_1_3 : S1024x64x64.BroadcastsInDim S1024x64x1x64 (![0, 1, 3] : Fin 3 → Fin S1024x64x1x64.rank)
  shapeCasts_S1024x64x1x64_S65536x64 : S1024x64x1x64.ShapeCasts S65536x64
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S1024x64x64 : S65536x64.ShapeCasts S1024x64x64
  bcast_S_S1024x64x64 : S_.BroadcastsInDim S1024x64x64 (![] : Fin 0 → Fin S1024x64x64.rank)
  dot_S65536x64_S64x64_S65536x64_1_0_0_1_n_n_wf : DotDims.WF S65536x64 S64x64 S65536x64 [1] [0] [0] [1] [] []

variable [Facts₀]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.RowSpec.lean ====
/-
  One output row of the aggregation layer, as a function of that row's inputs, on the extended reals.

  A row is one (batch, entity) pair. Its inputs: the user vector `u` (64 entries), the 32 neighbour relation vectors
  `rel n` and neighbour vectors `vec n` (64 entries each), the entity's own vector `self`, the weight matrix `W` (64 × 64)
  and the bias `b`. The row's result, entry by entry:

    score n   = ∑ d, u d · rel n d                                   the user–relation score of neighbour n
    weight s  = e^s · [s ≠ 0]                                        a score's softmax weight, dropped where the score is exactly 0
    guard t   = t if t ≠ 0, else 1                                   the normaliser, replaced by one for an all-dropped row
    attn n    = weight (score n) / guard (∑ n', weight (score n'))   the attention of neighbour n
    mixed k   = self k + ∑ n, attn n · vec n k                       the entity plus its aggregated neighbourhood
    rowOut j  = max (∑ k, mixed k · W j k + b j) 0                   the linear layer (x · Wᵀ + b), then the rectifier

  Both programs compute exactly this, with the sums in this order and the products in this order, so no law of the
  extended reals beyond `0 + x = x` is used anywhere and the inputs' finiteness is never needed.
-/
import Idealize.ShloMosaic.PureOps.Ideal
import Idealize.ShloMosaic.PureOps.Ideal.Laws
import Idealize.ShloMosaic.Lib.ValueIdx

noncomputable section

open scoped BigOperators

namespace Cert.Agg

open Idealize.ShloMosaic

/-- The extended real the f32 pattern of `1.0` denotes; both programs write this same word, so it is never evaluated. -/
abbrev one32 : EReal := Ideal.ofBits .f32 0x3F800000#32

/-- The indicator of `s ≠ z` as an extended real: the comparison's bit read as a number (0 or 1). -/
def ind (s z : EReal) : EReal := (((Ideal.cmp .one s z).toNat : ℝ) : EReal)

/-- A score's softmax weight: `e^s`, dropped where the score is exactly 0. -/
def weight (s : EReal) : EReal := Ideal.exp s * ind s 0

/-- A row's normaliser: the sum `t` of its weights, replaced by one where that sum is 0. -/
def guard (t : EReal) : EReal := Scalar.select (Ideal.cmp .one t 0) t one32

/-- The user–relation score of neighbour `n`. -/
def score (u : Fin 64 → EReal) (rel : Fin 32 → Fin 64 → EReal) (n : Fin 32) : EReal := ∑ d : Fin 64, u d * rel n d

/-- The attention of neighbour `n`: its weight over the row's guarded normaliser. -/
def attn (u : Fin 64 → EReal) (rel : Fin 32 → Fin 64 → EReal) (n : Fin 32) : EReal :=
  Ideal.div (weight (score u rel n)) (guard (∑ n' : Fin 32, weight (score u rel n')))

/-- The entity's vector plus its attention-weighted neighbourhood, at coordinate `k`. -/
def mixed (u : Fin 64 → EReal) (rel vec : Fin 32 → Fin 64 → EReal) (self : Fin 64 → EReal) (k : Fin 64) : EReal :=
  self k + ∑ n : Fin 32, attn u rel n * vec n k

/-- The row's result at coordinate `j`: the linear layer `mixed · Wᵀ + b`, then the rectifier. -/
def rowOut (u : Fin 64 → EReal) (rel vec : Fin 32 → Fin 64 → EReal) (self : Fin 64 → EReal) (W : Fin 64 → Fin 64 → EReal)
    (b : Fin 64 → EReal) (j : Fin 64) : EReal :=
  max ((∑ k : Fin 64, mixed u rel vec self k * W j k) + b j) 0

/-! ## The indicator, as each program spells it -/

/-- A one-bit word widened to 32 bits and read as a signed integer is the bit read as a natural number. -/
theorem toInt_setWidth_bit (c : BitVec 1) : (c.setWidth 32).toInt = (c.toNat : Int) := by
  have h : c = 0#1 ∨ c = 1#1 := by
    have := c.isLt
    rcases Nat.lt_or_ge c.toNat 1 with h0 | h1
    · left; exact BitVec.eq_of_toNat_eq (by simp; omega)
    · right; exact BitVec.eq_of_toNat_eq (by simp; omega)
  rcases h with rfl | rfl <;> rfl

/-- The kernel's spelling: the ordered comparison's bit, zero-extended to 32 bits and converted as a signed integer. -/
theorem ind_of_sitofp (s z : EReal) :
    FloatOps.sitofp (F := Ideal) .f32 ((FloatOps.cmpf (F := Ideal) (φ := .f32) .one s z).setWidth 32) = ind s z := by
  show (((((Ideal.cmp .one s z).setWidth 32).toInt : ℝ)) : EReal) = (((Ideal.cmp .one s z).toNat : ℝ) : EReal)
  rw [toInt_setWidth_bit]; simp

/-- The reference's spelling: the unordered comparison's bit converted as an unsigned integer (on a linear order the
    unordered "not equal" is the ordered one). -/
theorem ind_of_uitofp (s z : EReal) :
    FloatOps.uitofp (F := Ideal) .f32 (FloatOps.cmpf (F := Ideal) (φ := .f32) .une s z) = ind s z := rfl

/-- On a linear order the unordered "not equal" is the ordered one. -/
theorem cmp_une (s z : EReal) : Ideal.cmp .une s z = Ideal.cmp .one s z := rfl

/-! ## The whole output array -/

open Idealize.ShloMosaic.ValueIdx in
/-- Entry `(bI, e, j)` of the layer's output from the argument arrays: row `(bI, e)`'s result at `j`. The row's user vector
    is row `bI` of the user embeddings, its relation and neighbour vectors the 32 × 64 slabs at `(bI, e)`, its own vector
    the slab at `(bI, e, 0)`; the weights and the bias are shared by all rows. -/
def Gat (x0 : (⟨4, ![1024, 64, 1, 64]⟩ : Shape).Idx → EReal) (x1 x2 : (⟨4, ![1024, 64, 32, 64]⟩ : Shape).Idx → EReal)
    (x4 : (⟨2, ![1024, 64]⟩ : Shape).Idx → EReal) (x5 : (⟨2, ![64, 64]⟩ : Shape).Idx → EReal) (x6 : (⟨1, ![64]⟩ : Shape).Idx → EReal)
    (bI : Fin 1024) (e : Fin 64) (j : Fin 64) : EReal :=
  rowOut (fun d => x4 (ix2 bI d)) (fun n d => x2 (ix4 bI e n d)) (fun n d => x1 (ix4 bI e n d))
    (fun d => x0 (ix4 bI e (0 : Fin 1) d)) (fun j' k => x5 (ix2 j' k)) (fun j' => x6 (ix1 j')) j

/-- The layer's output array as ONE function of the argument arrays, index by index. -/
def G (x0 : (⟨4, ![1024, 64, 1, 64]⟩ : Shape).Idx → EReal) (x1 x2 : (⟨4, ![1024, 64, 32, 64]⟩ : Shape).Idx → EReal)
    (x4 : (⟨2, ![1024, 64]⟩ : Shape).Idx → EReal) (x5 : (⟨2, ![64, 64]⟩ : Shape).Idx → EReal) (x6 : (⟨1, ![64]⟩ : Shape).Idx → EReal) :
    (⟨3, ![1024, 64, 64]⟩ : Shape).Idx → EReal := fun i =>
  Gat x0 x1 x2 x4 x5 x6 ⟨(i 0).val, (i 0).isLt⟩ ⟨(i 1).val, (i 1).isLt⟩ ⟨(i 2).val, (i 2).isLt⟩

end Cert.Agg

end
-- ==== Proof.KernelRow.lean ====
/-
  The kernel's block, row by row. At one grid point the body holds a block of 8 batch rows: the user block `U` (8 × 64),
  the relation and neighbour blocks `R`, `N` (8 × 64 × 32 × 64), the entities' own block `S` (8 × 64 × 1 × 64) and the
  weights `W` (64 × 64). It forms, for every (p, e, n), the score ∑ d, U[p,d] · R[p,e,n,d]; the weights e^score · [score ≠ 0];
  for every (p, e) their sum over n, guarded against 0; the attentions weight / guard; for every (p, e, k) the mixed row
  S[p,e,0,k] + ∑ n, attention[p,e,n] · N[p,e,n,k]; and, with the 8 × 64 rows flattened to 512, the product of the mixed rows
  with W contracted over W's SECOND axis (that is, mixed · Wᵀ) into a zero accumulator. The intermediate vectors are named
  here, the body's value is shown to be that product over them, and each is read at explicit coordinates (p, e, n, k): entry
  by entry they are the functions of Proof/RowSpec.lean on row (p, e)'s slices of the block.
-/
import proofs.«142219_j69200513073772_1_alg».proof.Proof.KernelValue
import proofs.«142219_j69200513073772_1_alg».proof.Proof.RowSpec
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Cert.Agg Idealize.ShloMosaic Idealize.ShloMosaic.ValueIdx

variable (U : FVec Ideal S8x64 .f32) (R N : FVec Ideal S8x64x32x64 .f32) (S : FVec Ideal S8x64x1x64 .f32)
  (W : FVec Ideal S64x64 .f32)

/-! ## The body's intermediate vectors -/

/-- The user block laid along the entities and neighbours: entry (p, e, n, d) is U[p, d]. -/
def userAlong : FVec Ideal S8x64x32x64 .f32 :=
  broadcastTo S8x64x32x64 (shapeCast S8x1x1x64 U shapeCasts_S8x64_S8x1x1x64 : FVec Ideal S8x1x1x64 .f32) broadcasts_S8x1x1x64_S8x64x32x64

/-- The scores: the products U[p,d] · R[p,e,n,d] summed over d. -/
def scores : FVec Ideal S8x64x32 .f32 :=
  multiReduction .add [3] S8x64x32 (mulf (userAlong U) R) 0x00000000#32 reduces_S8x64x32x64_S8x64x32 (.inl rfl) rfl

/-- The softmax weights: e^score, times the indicator of score ≠ 0 (the comparison's bit widened and converted). -/
def weights : FVec Ideal S8x64x32 .f32 :=
  mulf (exp (scores U R))
    (sitofp .f32 (extui 32 (cmpf .one (scores U R) (broadcast S8x64x32 (Scalar.ofBits .f32 0x00000000#32))) natLt_1_32))

/-- Each row's weights summed over the neighbours, kept as a column. -/
def weightSums : FVec Ideal S8x64x1 .f32 :=
  shapeCast S8x64x1
    (multiReduction .add [2] S8x64 (weights U R) 0x00000000#32 reduces_S8x64x32_S8x64 (.inl rfl) rfl : FVec Ideal S8x64 .f32)
    shapeCasts_S8x64_S8x64x1

/-- The normalisers: the sums, with one in place of a sum that is 0. -/
def norms : FVec Ideal S8x64x1 .f32 :=
  select (cmpf .one (weightSums U R) (broadcast S8x64x1 (Scalar.ofBits .f32 0x00000000#32))) (weightSums U R)
    (broadcast S8x64x1 (Scalar.ofBits .f32 0x3F800000#32))

/-- The attentions: each weight over its row's normaliser. -/
def attns : FVec Ideal S8x64x32 .f32 :=
  divf (weights U R) (broadcastTo S8x64x32 (norms U R) broadcasts_S8x64x1_S8x64x32)

/-- The attentions laid along the feature axis: entry (p, e, n, k) is attention[p, e, n]. -/
def attnAlong : FVec Ideal S8x64x32x64 .f32 :=
  broadcastTo S8x64x32x64 (shapeCast S8x64x32x1 (attns U R) shapeCasts_S8x64x32_S8x64x32x1 : FVec Ideal S8x64x32x1 .f32)
    broadcasts_S8x64x32x1_S8x64x32x64

/-- The mixed rows: the entity's own vector plus the attention-weighted sum of its neighbours' vectors. -/
def mixedRows : FVec Ideal S8x64x64 .f32 :=
  addf (shapeCast S8x64x64 S shapeCasts_S8x64x1x64_S8x64x64 : FVec Ideal S8x64x64 .f32)
    (multiReduction .add [2] S8x64x64 (mulf (attnAlong U R) N) 0x00000000#32 reduces_S8x64x32x64_S8x64x64 (.inl rfl) rfl)

/-- The body's matrix product is the mixed rows, flattened to 512 × 64, times the weights contracted over their second axis,
    into a zero accumulator (the two narrowings to bf16 are the identity on the extended reals, but are kept as written). -/
theorem pay2_eq :
    k0_pay2 (F := Ideal) U R N S W
      = matmul dot_S512x64_S64x64_S512x64_1_1_0_0_n_n none
          (truncf .bf16 (shapeCast S512x64 (mixedRows U R N S) shapeCasts_S8x64x64_S512x64 : FVec Ideal S512x64 .f32) bitsLt_bf16_f32)
          (truncf .bf16 W bitsLt_bf16_f32) (constant S512x64 .f32 0x00000000#32) := rfl

/-! ## Reading them at coordinates -/

/-- A sum over one axis with the zero word as accumulator, read at an index: the sum over that axis's coordinates. -/
theorem sum_axis {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The user block along the other axes, at (p, e, n, d), is U[p, d]. -/
theorem userAlong_at (p : Fin 8) (e : Fin 64) (n : Fin 32) (d : Fin 64) : userAlong U (ix4 p e n d) = U (ix2 p d) := by
  unfold userAlong
  refine (broadcastTo_apply _ _ (ix4 p e n d) (ix4 p (0 : Fin 1) (0 : Fin 1) d) (fun a => match a with
    | ⟨0, _⟩ => by show p.val = (if (8 : Nat) = 1 then 0 else p.val); rw [if_neg (by decide)]
    | ⟨1, _⟩ => by show 0 = (if (1 : Nat) = 1 then 0 else e.val); rw [if_pos rfl]
    | ⟨2, _⟩ => by show 0 = (if (1 : Nat) = 1 then 0 else n.val); rw [if_pos rfl]
    | ⟨3, _⟩ => by show d.val = (if (64 : Nat) = 1 then 0 else d.val); rw [if_neg (by decide)])).trans ?_
  refine shapeCast_apply U _ (ix4 p (0 : Fin 1) (0 : Fin 1) d) (ix2 p d) ?_
  rw [Shape.rowMajor_val_two, Shape.rowMajor_val_four]
  show p.val * 64 + d.val = ((p.val * 1 + 0) * 1 + 0) * 64 + d.val
  omega

/-- The score at (p, e, n) is row (p, e)'s score of neighbour n. -/
theorem scores_at (p : Fin 8) (e : Fin 64) (n : Fin 32) :
    scores U R (ix3 p e n) = score (fun d => U (ix2 p d)) (fun n d => R (ix4 p e n d)) n := by
  unfold scores score
  refine (sum_axis _ reduces_S8x64x32x64_S8x64x32 _ _ (ix3 p e n)).trans ?_
  refine Finset.sum_congr rfl fun (d : Fin 64) _ => ?_
  have hl : reduces_S8x64x32x64_S8x64x32.lift (ix3 p e n) d = ix4 p e n d :=
    funext fun a => Fin.ext (by match a with | ⟨0, _⟩ => rfl | ⟨1, _⟩ => rfl | ⟨2, _⟩ => rfl | ⟨3, _⟩ => rfl)
  rw [hl]
  show userAlong U (ix4 p e n d) * R (ix4 p e n d) = U (ix2 p d) * R (ix4 p e n d)
  rw [userAlong_at]

/-- The zero word, as the kernel's scalar constant spells it, is the extended real 0. -/
theorem zero_word : (Scalar.ofBits (F := Ideal) .f32 0x00000000#32 : EReal) = 0 := Ideal.ofBits_zero_f32

/-- The weight at (p, e, n) is the softmax weight of row (p, e)'s score of neighbour n. -/
theorem weights_at (p : Fin 8) (e : Fin 64) (n : Fin 32) :
    weights U R (ix3 p e n) = weight (score (fun d => U (ix2 p d)) (fun n d => R (ix4 p e n d)) n) := by
  unfold weights weight
  show FloatOps.mulf (FloatOps.exp (scores U R (ix3 p e n)))
      (FloatOps.sitofp .f32 ((FloatOps.cmpf .one (scores U R (ix3 p e n)) (Scalar.ofBits (F := Ideal) .f32 0x00000000#32)).setWidth 32))
    = Ideal.exp _ * ind _ 0
  rw [scores_at, zero_word, ind_of_sitofp]
  rfl

/-- A row's weights summed over its neighbours. -/
theorem weightSums_at (p : Fin 8) (e : Fin 64) :
    weightSums U R (ix3 p e (0 : Fin 1)) = ∑ n : Fin 32, weight (score (fun d => U (ix2 p d)) (fun n d => R (ix4 p e n d)) n) := by
  unfold weightSums
  refine (shapeCast_apply _ _ (ix3 p e (0 : Fin 1)) (ix2 p e) ?_).trans ?_
  · rw [Shape.rowMajor_val_two, Shape.rowMajor_val_three]
    show p.val * 64 + e.val = (p.val * 64 + e.val) * 1 + 0
    omega
  refine (sum_axis _ reduces_S8x64x32_S8x64 _ _ (ix2 p e)).trans ?_
  refine Finset.sum_congr rfl fun (n : Fin 32) _ => ?_
  have hl : reduces_S8x64x32_S8x64.lift (ix2 p e) n = ix3 p e n :=
    funext fun a => Fin.ext (by match a with | ⟨0, _⟩ => rfl | ⟨1, _⟩ => rfl | ⟨2, _⟩ => rfl)
  rw [hl, weights_at]

/-- A row's normaliser is its guarded weight sum. -/
theorem norms_at (p : Fin 8) (e : Fin 64) :
    norms U R (ix3 p e (0 : Fin 1))
      = Agg.guard (∑ n : Fin 32, weight (score (fun d => U (ix2 p d)) (fun n d => R (ix4 p e n d)) n)) := by
  unfold norms Agg.guard
  show Scalar.select (FloatOps.cmpf .one (weightSums U R (ix3 p e (0 : Fin 1))) (Scalar.ofBits (F := Ideal) .f32 0x00000000#32))
      (weightSums U R (ix3 p e (0 : Fin 1))) (Scalar.ofBits (F := Ideal) .f32 0x3F800000#32)
    = Scalar.select (Ideal.cmp .one _ 0) _ one32
  rw [weightSums_at, zero_word]
  rfl

/-- The attention at (p, e, n) is row (p, e)'s attention of neighbour n. -/
theorem attns_at (p : Fin 8) (e : Fin 64) (n : Fin 32) :
    attns U R (ix3 p e n) = attn (fun d => U (ix2 p d)) (fun n d => R (ix4 p e n d)) n := by
  have hb : broadcastTo S8x64x32 (norms U R) broadcasts_S8x64x1_S8x64x32 (ix3 p e n) = norms U R (ix3 p e (0 : Fin 1)) :=
    broadcastTo_apply _ _ (ix3 p e n) (ix3 p e (0 : Fin 1)) (fun a => match a with
      | ⟨0, _⟩ => by show p.val = (if (8 : Nat) = 1 then 0 else p.val); rw [if_neg (by decide)]
      | ⟨1, _⟩ => by show e.val = (if (64 : Nat) = 1 then 0 else e.val); rw [if_neg (by decide)]
      | ⟨2, _⟩ => by show 0 = (if (1 : Nat) = 1 then 0 else n.val); rw [if_pos rfl])
  unfold attns attn
  show FloatOps.divf (weights U R (ix3 p e n)) (broadcastTo S8x64x32 (norms U R) broadcasts_S8x64x1_S8x64x32 (ix3 p e n))
    = Ideal.div _ _
  rw [hb, weights_at, norms_at]
  rfl

/-- The attentions along the feature axis, at (p, e, n, k), are row (p, e)'s attention of neighbour n. -/
theorem attnAlong_at (p : Fin 8) (e : Fin 64) (n : Fin 32) (k : Fin 64) :
    attnAlong U R (ix4 p e n k) = attn (fun d => U (ix2 p d)) (fun n d => R (ix4 p e n d)) n := by
  unfold attnAlong
  refine (broadcastTo_apply _ _ (ix4 p e n k) (ix4 p e n (0 : Fin 1)) (fun a => match a with
    | ⟨0, _⟩ => by show p.val = (if (8 : Nat) = 1 then 0 else p.val); rw [if_neg (by decide)]
    | ⟨1, _⟩ => by show e.val = (if (64 : Nat) = 1 then 0 else e.val); rw [if_neg (by decide)]
    | ⟨2, _⟩ => by show n.val = (if (32 : Nat) = 1 then 0 else n.val); rw [if_neg (by decide)]
    | ⟨3, _⟩ => by show 0 = (if (1 : Nat) = 1 then 0 else k.val); rw [if_pos rfl])).trans ?_
  refine (shapeCast_apply (attns U R) _ (ix4 p e n (0 : Fin 1)) (ix3 p e n) ?_).trans (attns_at U R p e n)
  rw [Shape.rowMajor_val_three, Shape.rowMajor_val_four]
  show (p.val * 64 + e.val) * 32 + n.val = ((p.val * 64 + e.val) * 32 + n.val) * 1 + 0
  omega

/-- The mixed row at (p, e, k): the entity's own entry plus the attention-weighted sum of its neighbours' entries. -/
theorem mixedRows_at (p : Fin 8) (e : Fin 64) (k : Fin 64) :
    mixedRows U R N S (ix3 p e k)
      = mixed (fun d => U (ix2 p d)) (fun n d => R (ix4 p e n d)) (fun n d => N (ix4 p e n d))
          (fun d => S (ix4 p e (0 : Fin 1) d)) k := by
  have hs : (shapeCast S8x64x64 S shapeCasts_S8x64x1x64_S8x64x64 : FVec Ideal S8x64x64 .f32) (ix3 p e k)
      = S (ix4 p e (0 : Fin 1) k) :=
    shapeCast_apply S _ (ix3 p e k) (ix4 p e (0 : Fin 1) k) (by
      rw [Shape.rowMajor_val_four, Shape.rowMajor_val_three]
      show ((p.val * 64 + e.val) * 1 + 0) * 64 + k.val = (p.val * 64 + e.val) * 64 + k.val
      omega)
  have hr : multiReduction .add [2] S8x64x64 (mulf (attnAlong U R) N) 0x00000000#32 reduces_S8x64x32x64_S8x64x64 (.inl rfl) rfl
        (ix3 p e k)
      = ∑ n : Fin 32, attn (fun d => U (ix2 p d)) (fun n d => R (ix4 p e n d)) n * N (ix4 p e n k) := by
    refine (sum_axis _ reduces_S8x64x32x64_S8x64x64 _ _ (ix3 p e k)).trans ?_
    refine Finset.sum_congr rfl fun (n : Fin 32) _ => ?_
    have hl : reduces_S8x64x32x64_S8x64x64.lift (ix3 p e k) n = ix4 p e n k :=
      funext fun a => Fin.ext (by match a with | ⟨0, _⟩ => rfl | ⟨1, _⟩ => rfl | ⟨2, _⟩ => rfl | ⟨3, _⟩ => rfl)
    rw [hl]
    show attnAlong U R (ix4 p e n k) * N (ix4 p e n k) = _
    rw [attnAlong_at]
  unfold mixedRows mixed
  show (shapeCast S8x64x64 S shapeCasts_S8x64x1x64_S8x64x64 : FVec Ideal S8x64x64 .f32) (ix3 p e k)
      + multiReduction .add [2] S8x64x64 (mulf (attnAlong U R) N) 0x00000000#32 reduces_S8x64x32x64_S8x64x64 (.inl rfl) rfl
          (ix3 p e k) = _
  rw [hs, hr]

/-! ## The product with the weights -/

/-- The left operand's row coordinate is the output's row coordinate. -/
theorem lhs_row (i : S512x64.Idx) (q : dot_S512x64_S64x64_S512x64_1_1_0_0_n_n.contr.Idx) :
    (dot_S512x64_S64x64_S512x64_1_1_0_0_n_n.lhsIdx i q 0).val = (i 0).val := by
  unfold DotDims.lhsIdx
  rw [dif_neg (show ¬(0 : Fin S512x64.rank) ∈ dot_S512x64_S64x64_S512x64_1_1_0_0_n_n.lhsBatch by decide),
    dif_pos (show (0 : Fin S512x64.rank) ∈ dot_S512x64_S64x64_S512x64_1_1_0_0_n_n.lhsNonContracting by decide)]
  rfl
/-- The left operand's column coordinate is the contraction coordinate. -/
theorem lhs_col (i : S512x64.Idx) (q : dot_S512x64_S64x64_S512x64_1_1_0_0_n_n.contr.Idx) :
    (dot_S512x64_S64x64_S512x64_1_1_0_0_n_n.lhsIdx i q 1).val = (q ⟨0, by decide⟩).val :=
  dot_S512x64_S64x64_S512x64_1_1_0_0_n_n.lhsIdx_val_of_single rfl i q
/-- The right operand's ROW coordinate is the output's column coordinate: the weights enter transposed. -/
theorem rhs_row (i : S512x64.Idx) (q : dot_S512x64_S64x64_S512x64_1_1_0_0_n_n.contr.Idx) :
    (dot_S512x64_S64x64_S512x64_1_1_0_0_n_n.rhsIdx i q 0).val = (i 1).val := by
  unfold DotDims.rhsIdx
  rw [dif_neg (show ¬(0 : Fin S64x64.rank) ∈ dot_S512x64_S64x64_S512x64_1_1_0_0_n_n.rhsBatch by decide),
    dif_pos (show (0 : Fin S64x64.rank) ∈ dot_S512x64_S64x64_S512x64_1_1_0_0_n_n.rhsNonContracting by decide)]
  rfl
/-- The right operand's column coordinate is the contraction coordinate. -/
theorem rhs_col (i : S512x64.Idx) (q : dot_S512x64_S64x64_S512x64_1_1_0_0_n_n.contr.Idx) :
    (dot_S512x64_S64x64_S512x64_1_1_0_0_n_n.rhsIdx i q 1).val = (q ⟨0, by decide⟩).val :=
  dot_S512x64_S64x64_S512x64_1_1_0_0_n_n.rhsIdx_val_of_single rfl i q

/-- The body's product at flattened row p · 64 + e and column j: the mixed row (p, e) against row j of the weights. -/
theorem pay2_at (p : Fin 8) (e : Fin 64) (j : Fin 64) (r : S512x64.Idx) (h0 : (r 0).val = p.val * 64 + e.val)
    (h1 : (r 1).val = j.val) :
    k0_pay2 (F := Ideal) U R N S W r
      = ∑ k : Fin 64, mixed (fun d => U (ix2 p d)) (fun n d => R (ix4 p e n d)) (fun n d => N (ix4 p e n d))
          (fun d => S (ix4 p e (0 : Fin 1) d)) k * W (ix2 j k) := by
  rw [pay2_eq]
  refine (Ideal.matmul_constant_zero_apply dot_S512x64_S64x64_S512x64_1_1_0_0_n_n none _ _ r).trans ?_
  rw [← Equiv.sum_comp (contrEquiv1 dot_S512x64_S64x64_S512x64_1_1_0_0_n_n 64 rfl rfl).symm]
  refine Finset.sum_congr rfl fun k _ => ?_
  have hk := contrEquiv1_symm_val dot_S512x64_S64x64_S512x64_1_1_0_0_n_n 64 rfl rfl k
  have el : (shapeCast S512x64 (mixedRows U R N S) shapeCasts_S8x64x64_S512x64 : FVec Ideal S512x64 .f32)
        (dot_S512x64_S64x64_S512x64_1_1_0_0_n_n.lhsIdx r ((contrEquiv1 dot_S512x64_S64x64_S512x64_1_1_0_0_n_n 64 rfl rfl).symm k))
      = mixedRows U R N S (ix3 p e k) :=
    shapeCast_apply (mixedRows U R N S) _ _ (ix3 p e k) (by
      rw [Shape.rowMajor_val_three, Shape.rowMajor_val_two, lhs_row, (lhs_col _ _).trans hk, h0]
      show (p.val * 64 + e.val) * 64 + k.val = (p.val * 64 + e.val) * 64 + k.val
      rfl)
  have er : dot_S512x64_S64x64_S512x64_1_1_0_0_n_n.rhsIdx r ((contrEquiv1 dot_S512x64_S64x64_S512x64_1_1_0_0_n_n 64 rfl rfl).symm k)
      = ix2 j k := funext fun a => Fin.ext (by
    match a with
    | ⟨0, _⟩ => exact (rhs_row _ _).trans h1
    | ⟨1, _⟩ => exact (rhs_col _ _).trans hk)
  show (shapeCast S512x64 (mixedRows U R N S) shapeCasts_S8x64x64_S512x64 : FVec Ideal S512x64 .f32)
        (dot_S512x64_S64x64_S512x64_1_1_0_0_n_n.lhsIdx r ((contrEquiv1 dot_S512x64_S64x64_S512x64_1_1_0_0_n_n 64 rfl rfl).symm k))
      * W (dot_S512x64_S64x64_S512x64_1_1_0_0_n_n.rhsIdx r ((contrEquiv1 dot_S512x64_S64x64_S512x64_1_1_0_0_n_n 64 rfl rfl).symm k))
    = _
  rw [el, er, mixedRows_at]

/-! ## The block the body leaves -/

/-- Entry (p, e, j) of the block the body leaves in the output window: row (p, e)'s result at j, over the row's slices of the
    input blocks (the product above, plus the bias at j, rectified). -/
theorem block_at (B : FVec Ideal S64 .f32) (p : Fin 8) (e : Fin 64) (j : Fin 64) :
    Cert.KernelIdeal.ValueP.E6 (F := Ideal) U R N S W B (ix3 p e j)
      = rowOut (fun d => U (ix2 p d)) (fun n d => R (ix4 p e n d)) (fun n d => N (ix4 p e n d))
          (fun d => S (ix4 p e (0 : Fin 1) d)) (fun j' k => W (ix2 j' k)) (fun j' => B (ix1 j')) j := by
  unfold rowOut
  show max (k0_pay2 (F := Ideal) U R N S W (Cert.KernelIdeal.ValueP.ix6_0 (ix3 p e j)) + B (Cert.KernelIdeal.ValueP.ix6_1 (ix3 p e j)))
      (Scalar.ofBits (F := Ideal) .f32 0x00000000#32) = _
  rw [pay2_at U R N S W p e j (Cert.KernelIdeal.ValueP.ix6_0 (ix3 p e j)) rfl rfl, zero_word]
  have hb : Cert.KernelIdeal.ValueP.ix6_1 (ix3 p e j) = ix1 j := funext fun a => Fin.ext (by match a with | ⟨0, _⟩ => rfl)
  rw [hb]

end Cert.KernelIdeal.Row

end
-- ==== Proof.KernelArray.lean ====
/-
  From the blocks to the array. Grid point t (of 128) works on batch rows 8t … 8t + 7: every blocked window's block index on
  its leading axis is t and 0 on the others, and the weights' and the bias's one block is the whole array. So entry (p, e, j)
  of the block point t writes back is row (8t + p, e)'s result at j, that is entry (8t + p, e, j) of the one whole-array
  function of Proof/RowSpec.lean; batch row bI lies in the block of point bI / 8, the blocks cover the output, and the output
  array ends holding that function of the argument arrays.
-/
import proofs.«142219_j69200513073772_1_alg».proof.Proof.KernelRow

set_option maxRecDepth 16384

noncomputable section

open scoped BigOperators

namespace Cert.KernelIdeal.Arr

open Cert.KernelIdeal Cert.KernelIdeal.Gen Cert.KernelIdeal.Row Cert.Agg Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The printed index maps, decided over the 128 grid points: a blocked window's block index is the point on the batch axis
    and 0 elsewhere; the weights and the bias have the one block. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 2) = t.val ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 3) = t.val ∧ win0_6.index t (1 : Fin 3) = 0 ∧ win0_6.index t (2 : Fin 3) = 0) :=
  (by decide +kernel : ∀ t : Fin grid0.N, _)

/-- The whole-array function at the argument arrays as the region finds them. -/
abbrev GV (c : Dev nD) : S1024x64x64.Idx → EReal :=
  G (V m c main_arg0) (V m c main_arg1) (V m c main_arg2) (V m c main_arg4) (V m c main_arg5) (V m c main_arg6)

/-- A row's result depends only on the row's inputs, entry by entry. -/
theorem rowOut_congr {u u' : Fin 64 → EReal} {rel rel' vec vec' : Fin 32 → Fin 64 → EReal} {self self' : Fin 64 → EReal}
    {W W' : Fin 64 → Fin 64 → EReal} {b b' : Fin 64 → EReal} (hu : ∀ d, u d = u' d) (hrel : ∀ n d, rel n d = rel' n d)
    (hvec : ∀ n d, vec n d = vec' n d) (hself : ∀ d, self d = self' d) (hW : ∀ j k, W j k = W' j k) (hb : ∀ j, b j = b' j)
    (j : Fin 64) : rowOut u rel vec self W b j = rowOut u' rel' vec' self' W' b' j := by
  obtain rfl : u = u' := funext hu
  obtain rfl : rel = rel' := funext fun n => funext (hrel n)
  obtain rfl : vec = vec' := funext fun n => funext (hvec n)
  obtain rfl : self = self' := funext hself
  obtain rfl : W = W' := funext fun j => funext (hW j)
  obtain rfl : b = b' := funext hb
  rfl

/-! ## Each input window's block at point t, read at coordinates: rows 8t … 8t + 7 of its array -/

/-- The entities' own vectors. -/
theorem self_blk (c : Dev nD) (t : Fin cfg0.N) (p : Fin 8) (e : Fin 64) (d : Fin 64) (bI : Fin 1024) (hb : bI.val = 8 * t.val + p.val) :
    (iblk m c 0 t : Vec Ideal S8x64x1x64 .f32) (ix4 p e (0 : Fin 1) d)
      = (V m c main_arg0 : S1024x64x1x64.Idx → EReal) (ix4 bI e (0 : Fin 1) d) := by
  obtain ⟨⟨a0, a1, a2, a3⟩, -⟩ := idx_facts t
  unfold iblk
  rw [View.read_apply]
  show V m c main_arg0 _ = V m c main_arg0 _
  congr 1
  funext a
  apply Fin.ext
  match a with
  | ⟨0, _⟩ => show win0_0.index t (0 : Fin 4) * 8 + 1 * p.val = bI.val; rw [a0, hb]; omega
  | ⟨1, _⟩ => show win0_0.index t (1 : Fin 4) * 64 + 1 * e.val = e.val; rw [a1]; omega
  | ⟨2, _⟩ => show win0_0.index t (2 : Fin 4) * 1 + 1 * 0 = 0; rw [a2]
  | ⟨3, _⟩ => show win0_0.index t (3 : Fin 4) * 64 + 1 * d.val = d.val; rw [a3]; omega

/-- The neighbours' vectors. -/
theorem nbr_blk (c : Dev nD) (t : Fin cfg0.N) (p : Fin 8) (e : Fin 64) (n : Fin 32) (d : Fin 64) (bI : Fin 1024)
    (hb : bI.val = 8 * t.val + p.val) :
    (iblk m c 1 t : Vec Ideal S8x64x32x64 .f32) (ix4 p e n d)
      = (V m c main_arg1 : S1024x64x32x64.Idx → EReal) (ix4 bI e n d) := by
  obtain ⟨-, ⟨a0, a1, a2, a3⟩, -⟩ := idx_facts t
  unfold iblk
  rw [View.read_apply]
  show V m c main_arg1 _ = V m c main_arg1 _
  congr 1
  funext a
  apply Fin.ext
  match a with
  | ⟨0, _⟩ => show win0_1.index t (0 : Fin 4) * 8 + 1 * p.val = bI.val; rw [a0, hb]; omega
  | ⟨1, _⟩ => show win0_1.index t (1 : Fin 4) * 64 + 1 * e.val = e.val; rw [a1]; omega
  | ⟨2, _⟩ => show win0_1.index t (2 : Fin 4) * 32 + 1 * n.val = n.val; rw [a2]; omega
  | ⟨3, _⟩ => show win0_1.index t (3 : Fin 4) * 64 + 1 * d.val = d.val; rw [a3]; omega

/-- The neighbours' relation vectors. -/
theorem rel_blk (c : Dev nD) (t : Fin cfg0.N) (p : Fin 8) (e : Fin 64) (n : Fin 32) (d : Fin 64) (bI : Fin 1024)
    (hb : bI.val = 8 * t.val + p.val) :
    (iblk m c 2 t : Vec Ideal S8x64x32x64 .f32) (ix4 p e n d)
      = (V m c main_arg2 : S1024x64x32x64.Idx → EReal) (ix4 bI e n d) := by
  obtain ⟨-, -, ⟨a0, a1, a2, a3⟩, -⟩ := idx_facts t
  unfold iblk
  rw [View.read_apply]
  show V m c main_arg2 _ = V m c main_arg2 _
  congr 1
  funext a
  apply Fin.ext
  match a with
  | ⟨0, _⟩ => show win0_2.index t (0 : Fin 4) * 8 + 1 * p.val = bI.val; rw [a0, hb]; omega
  | ⟨1, _⟩ => show win0_2.index t (1 : Fin 4) * 64 + 1 * e.val = e.val; rw [a1]; omega
  | ⟨2, _⟩ => show win0_2.index t (2 : Fin 4) * 32 + 1 * n.val = n.val; rw [a2]; omega
  | ⟨3, _⟩ => show win0_2.index t (3 : Fin 4) * 64 + 1 * d.val = d.val; rw [a3]; omega

/-- The users' vectors. -/
theorem user_blk (c : Dev nD) (t : Fin cfg0.N) (p : Fin 8) (d : Fin 64) (bI : Fin 1024) (hb : bI.val = 8 * t.val + p.val) :
    (iblk m c 3 t : Vec Ideal S8x64 .f32) (ix2 p d) = (V m c main_arg4 : S1024x64.Idx → EReal) (ix2 bI d) := by
  obtain ⟨-, -, -, ⟨a0, a1⟩, -⟩ := idx_facts t
  unfold iblk
  rw [View.read_apply]
  show V m c main_arg4 _ = V m c main_arg4 _
  congr 1
  funext a
  apply Fin.ext
  match a with
  | ⟨0, _⟩ => show win0_3.index t (0 : Fin 2) * 8 + 1 * p.val = bI.val; rw [a0, hb]; omega
  | ⟨1, _⟩ => show win0_3.index t (1 : Fin 2) * 64 + 1 * d.val = d.val; rw [a1]; omega

/-- The weights: the one block is the whole matrix. -/
theorem weights_blk (c : Dev nD) (t : Fin cfg0.N) (j k : Fin 64) :
    (iblk m c 4 t : Vec Ideal S64x64 .f32) (ix2 j k) = (V m c main_arg5 : S64x64.Idx → EReal) (ix2 j k) := by
  obtain ⟨-, -, -, -, ⟨a0, a1⟩, -⟩ := idx_facts t
  unfold iblk
  rw [View.read_apply]
  show V m c main_arg5 _ = V m c main_arg5 _
  congr 1
  funext a
  apply Fin.ext
  match a with
  | ⟨0, _⟩ => show win0_4.index t (0 : Fin 2) * 64 + 1 * j.val = j.val; rw [a0]; omega
  | ⟨1, _⟩ => show win0_4.index t (1 : Fin 2) * 64 + 1 * k.val = k.val; rw [a1]; omega

/-- The bias: the one block is the whole vector. -/
theorem bias_blk (c : Dev nD) (t : Fin cfg0.N) (j : Fin 64) :
    (iblk m c 5 t : Vec Ideal S64 .f32) (ix1 j) = (V m c main_arg6 : S64.Idx → EReal) (ix1 j) := by
  obtain ⟨-, -, -, -, -, a0, -⟩ := idx_facts t
  unfold iblk
  rw [View.read_apply]
  show V m c main_arg6 _ = V m c main_arg6 _
  congr 1
  funext a
  apply Fin.ext
  match a with
  | ⟨0, _⟩ => show win0_5.index t (0 : Fin 1) * 64 + 1 * j.val = j.val; rw [a0]; omega

/-! ## The write-backs, the cover, the array -/

/-- What the body leaves in the output window, entry (p, e, j), for ANY input blocks: row (p, e)'s result at j over the row's
    slices of the blocks (the loads are of the whole blocks). -/
theorem out_at (x0 : Vec Ideal S8x64x1x64 .f32) (x1 x2 : Vec Ideal S8x64x32x64 .f32) (x3 : Vec Ideal S8x64 .f32)
    (x4 : Vec Ideal S64x64 .f32) (x5 : Vec Ideal S64 .f32) (p : Fin 8) (e : Fin 64) (j : Fin 64) :
    out0_6 (F := Ideal) x0 x1 x2 x3 x4 x5 (ix3 p e j)
      = rowOut (fun d => x3 (ix2 p d)) (fun n d => x2 (ix4 p e n d)) (fun n d => x1 (ix4 p e n d))
          (fun d => x0 (ix4 p e (0 : Fin 1) d)) (fun j' k => x4 (ix2 j' k)) (fun j' => x5 (ix1 j')) j := by
  unfold out0_6
  rw [Cert.KernelIdeal.ValueP.canon6_eq]
  simp only [View.ld_unit_zero (S := S8x64) hz2, View.ld_unit_zero (S := S8x64x32x64) hz4, View.ld_unit_zero (S := S8x64x1x64) hz4,
    View.ld_unit_zero (S := S64x64) hz2, View.ld_unit_zero (S := S64) hz1]
  exact block_at x3 x2 x1 x0 x4 x5 p e j

/-- WHAT POINT t WRITES BACK is block t of the whole-array function. -/
theorem flushed_eq (c : Dev nD) (t : Fin cfg0.N) :
    (dats m 0 c).flushed 6 t = ((cfg0.win 6).blk t).view.read (Elt Ideal) (GV m c) := by
  rw [Cert.KernelIdeal.ValueP.flushed6]
  obtain ⟨-, -, -, -, -, -, ⟨a60, a61, a62⟩⟩ := idx_facts t
  funext y
  obtain ⟨p, e, j, rfl⟩ : ∃ (p : Fin 8) (e : Fin 64) (j : Fin 64), y = ix3 p e j := ⟨y 0, y 1, y 2, eq_ix3 y⟩
  have ht : t.val < 128 := t.isLt
  have hp : p.val < 8 := p.isLt
  have hi : ((cfg0.win 6).blk t).view.emb (ix3 p e j) = ix3 (⟨8 * t.val + p.val, by omega⟩ : Fin 1024) e j := by
    funext a
    apply Fin.ext
    match a with
    | ⟨0, _⟩ => show win0_6.index t (0 : Fin 3) * 8 + 1 * p.val = 8 * t.val + p.val; rw [a60]; omega
    | ⟨1, _⟩ => show win0_6.index t (1 : Fin 3) * 64 + 1 * e.val = e.val; rw [a61]; omega
    | ⟨2, _⟩ => show win0_6.index t (2 : Fin 3) * 64 + 1 * j.val = j.val; rw [a62]; omega
  rw [View.read_apply]
  show out0_6 (F := Ideal) (iblk m c 0 t) (iblk m c 1 t) (iblk m c 2 t) (iblk m c 3 t) (iblk m c 4 t) (iblk m c 5 t) (ix3 p e j)
    = GV m c (((cfg0.win 6).blk t).view.emb (ix3 p e j))
  rw [hi]
  refine (out_at (iblk m c 0 t) (iblk m c 1 t) (iblk m c 2 t) (iblk m c 3 t) (iblk m c 4 t) (iblk m c 5 t) p e j).trans ?_
  show _ = Gat (V m c main_arg0) (V m c main_arg1) (V m c main_arg2) (V m c main_arg4) (V m c main_arg5) (V m c main_arg6)
    (⟨8 * t.val + p.val, by omega⟩ : Fin 1024) e j
  unfold Gat
  exact rowOut_congr (fun d => user_blk m c t p d _ rfl) (fun n d => rel_blk m c t p e n d _ rfl)
    (fun n d => nbr_blk m c t p e n d _ rfl) (fun d => self_blk m c t p e d _ rfl) (fun j' k => weights_blk m c t j' k)
    (fun j' => bias_blk m c t j') j

/-- An index of the output is in point t's block iff each coordinate is in the block's range on its axis. -/
theorem mem_blk (t : Fin cfg0.N) (i : S1024x64x64.Idx) :
    i ∈ ((cfg0.win 6).blk t).view.set
      ↔ ∀ a : Fin 3, win0_6.index t a * S8x64x64.size a ≤ (i a).val ∧ (i a).val < win0_6.index t a * S8x64x64.size a + S8x64x64.size a := by
  show i ∈ ((View.whole main_v0).slice (win0_6.rect t)).set ↔ _
  rw [View.set_slice_whole, Rect.mem_set_unit]
  exact Iff.rfl

/-- THE ARRAY after the run is the whole-array function: batch row bI is in the block of point bI / 8. -/
theorem final (c : Dev nD) : (dats m 0 c).arrAt 6 cfg0.N = GV m c :=
  (dats m 0 c).arrAt_eq_of_cover 6 (GV m c) (fun t _ => flushed_eq m c t) fun i => by
    have h0 : (i 0).val < 1024 := (i 0).isLt
    have h1 : (i 1).val < 64 := (i 1).isLt
    have h2 : (i 2).val < 64 := (i 2).isLt
    have hN : (i 0).val / 8 < cfg0.N := by show (i 0).val / 8 < 128; omega
    obtain ⟨-, -, -, -, -, -, ⟨a60, a61, a62⟩⟩ := idx_facts ⟨(i 0).val / 8, hN⟩
    refine ⟨⟨(i 0).val / 8, hN⟩, flush0_6 _, ?_⟩
    rw [mem_blk]
    intro a
    match a with
    | ⟨0, _⟩ =>
      show win0_6.index ⟨(i 0).val / 8, hN⟩ (0 : Fin 3) * 8 ≤ (i 0).val ∧ (i 0).val < win0_6.index ⟨(i 0).val / 8, hN⟩ (0 : Fin 3) * 8 + 8
      rw [a60]; show (i 0).val / 8 * 8 ≤ (i 0).val ∧ (i 0).val < (i 0).val / 8 * 8 + 8; omega
    | ⟨1, _⟩ =>
      show win0_6.index ⟨(i 0).val / 8, hN⟩ (1 : Fin 3) * 64 ≤ (i 1).val ∧ (i 1).val < win0_6.index ⟨(i 0).val / 8, hN⟩ (1 : Fin 3) * 64 + 64
      rw [a61]; omega
    | ⟨2, _⟩ =>
      show win0_6.index ⟨(i 0).val / 8, hN⟩ (2 : Fin 3) * 64 ≤ (i 2).val ∧ (i 2).val < win0_6.index ⟨(i 0).val / 8, hN⟩ (2 : Fin 3) * 64 + 64
      rw [a62]; omega

/-- The kernel's run, read: the output array ends at the whole-array function of the argument arrays, which are unchanged. -/
theorem run : θ_run defs (onTc (τ := τ) (main (F := Ideal))) ⟨m, fun _ => 0, ρ⟩ fun r => ∀ c : Dev nD,
      r.2.mem ((c : Thread nD τ).loc main_v0) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.ValueP.run_blocks m ρ)

end Cert.KernelIdeal.Arr

end
-- ==== Proof.RefRow.lean ====
/-
  The reference program, read one output row at a time.

  Each stage of the reference is read at explicit coordinates (batch bI, entity e, neighbour n, feature k or j) and
  identified with the corresponding entry of the row specification: the user–relation score, the softmax weight with
  its indicator, the guarded normaliser, the attention, the mixed vector, and the linear layer with the rectifier.
  The broadcasts and reshapes only re-index; the sums keep their order; the only law of the extended reals used is
  0 + x = x for the sums' initial value.
-/
import proofs.«142219_j69200513073772_1_alg».proof.Proof.Gen.ReferenceIdeal.Read
import proofs.«142219_j69200513073772_1_alg».proof.Proof.RowSpec

noncomputable section

open scoped BigOperators

namespace Cert.ReferenceIdeal.RefRow

open Cert.ReferenceIdeal Cert.ReferenceIdeal.Read Cert.Agg Idealize.ShloMosaic Idealize.ShloMosaic.ValueIdx

/-- The user–relation score: the reference's sum over the feature axis of (broadcast user vector) · (relation vector),
    at row (bI, e) and neighbour n, is `∑ d, u d · rel n d`. -/
theorem score_at (x2 : (⟨S1024x64x32x64, .f32⟩ : BufTy).Contents (Elt Ideal)) (x4 : (⟨S1024x64, .f32⟩ : BufTy).Contents (Elt Ideal))
    (bI : Fin 1024) (e : Fin 64) (n : Fin 32) :
    val_main_v3 (F := Ideal) x2 x4 (ix3 bI e n)
      = score (fun d => x4 (ix2 bI d)) (fun n d => x2 (ix4 bI e n d)) n := by
  rw [val_main_v3_apply, val_main_cst_apply]
  simp only [val_main_v2_apply, val_main_v1_apply, val_main_v0_apply, Ideal.ofBits_def, Ideal.ofBits_zero_f32, zero_add,
    Ideal.mulf_def]
  unfold score
  refine Finset.sum_congr rfl fun d _ => ?_
  have hu : idx_main_v0 (idx_main_v1 (idx_main_v3 (ix3 bI e n) d)) = ix2 bI d :=
    funext fun a => by match a with | ⟨0, _⟩ => rfl | ⟨1, _⟩ => rfl
  have hr : idx_main_v3 (ix3 bI e n) d = ix4 bI e n d :=
    funext fun a => by match a with | ⟨0, _⟩ => rfl | ⟨1, _⟩ => rfl | ⟨2, _⟩ => rfl | ⟨3, _⟩ => rfl
  rw [hu, hr]

/-- The softmax weight: the reference's `exp(score) · [score ≠ 0]`, the indicator spelled as the unordered comparison's
    bit converted to a number, is `weight` of the score. -/
theorem weight_at (x2 : (⟨S1024x64x32x64, .f32⟩ : BufTy).Contents (Elt Ideal)) (x4 : (⟨S1024x64, .f32⟩ : BufTy).Contents (Elt Ideal))
    (bI : Fin 1024) (e : Fin 64) (n : Fin 32) :
    val_main_v8 (F := Ideal) x2 x4 (ix3 bI e n)
      = weight (score (fun d => x4 (ix2 bI d)) (fun n d => x2 (ix4 bI e n d)) n) := by
  rw [val_main_v8_apply, val_main_v4_apply, val_main_v7_apply, val_main_v6_apply, val_main_v5_apply,
    val_main_cst_0_apply, score_at, Ideal.ofBits_def, Ideal.ofBits_zero_f32, ind_of_uitofp, Ideal.mulf_def,
    Ideal.hostUnary_exp_def]
  rfl

/-- The guarded normaliser: the reference's sum of the row's weights over the neighbour axis, replaced by one where it
    is 0, is `guard` of `∑ n', weight (score n')`. -/
theorem guard_at (x2 : (⟨S1024x64x32x64, .f32⟩ : BufTy).Contents (Elt Ideal)) (x4 : (⟨S1024x64, .f32⟩ : BufTy).Contents (Elt Ideal))
    (bI : Fin 1024) (e : Fin 64) :
    val_main_v14 (F := Ideal) x2 x4 (ix3 bI e (0 : Fin 1))
      = guard (∑ n' : Fin 32, weight (score (fun d => x4 (ix2 bI d)) (fun n d => x2 (ix4 bI e n d)) n')) := by
  have hsum : val_main_v10 (F := Ideal) x2 x4 (ix3 bI e (0 : Fin 1))
      = ∑ n' : Fin 32, weight (score (fun d => x4 (ix2 bI d)) (fun n d => x2 (ix4 bI e n d)) n') := by
    rw [val_main_v10_apply, val_main_v9_apply, val_main_cst_1_apply, Ideal.ofBits_def, Ideal.ofBits_zero_f32, zero_add]
    refine Finset.sum_congr rfl fun n' _ => ?_
    have hi : idx_main_v9 (idx_main_v10 (ix3 bI e (0 : Fin 1))) n' = ix3 bI e n' :=
      funext fun a => by match a with | ⟨0, _⟩ => rfl | ⟨1, _⟩ => rfl | ⟨2, _⟩ => rfl
    rw [hi, weight_at]
  rw [val_main_v14_apply, val_main_v12_apply, val_main_v11_apply, val_main_v13_apply, val_main_cst_2_apply,
    val_main_cst_3_apply, hsum, Ideal.ofBits_def, Ideal.ofBits_zero_f32, Ideal.cmpf_def, cmp_une]
  rfl

/-- The attention: the reference's weight divided by the (broadcast) guarded normaliser is `attn`. -/
theorem attn_at (x2 : (⟨S1024x64x32x64, .f32⟩ : BufTy).Contents (Elt Ideal)) (x4 : (⟨S1024x64, .f32⟩ : BufTy).Contents (Elt Ideal))
    (bI : Fin 1024) (e : Fin 64) (n : Fin 32) :
    val_main_v16 (F := Ideal) x2 x4 (ix3 bI e n)
      = attn (fun d => x4 (ix2 bI d)) (fun n d => x2 (ix4 bI e n d)) n := by
  have hi : idx_main_v15 (ix3 bI e n) = ix3 bI e (0 : Fin 1) :=
    funext fun a => by match a with | ⟨0, _⟩ => rfl | ⟨1, _⟩ => rfl | ⟨2, _⟩ => rfl
  rw [val_main_v16_apply, val_main_v15_apply, hi, guard_at, weight_at, Ideal.hostDivf_def]
  rfl

/-- The mixed vector: the entity's own vector plus the reference's sum over the neighbour axis of
    (broadcast attention) · (neighbour vector) is `mixed`. -/
theorem mixed_at (x0 : (⟨S1024x64x1x64, .f32⟩ : BufTy).Contents (Elt Ideal)) (x1 x2 : (⟨S1024x64x32x64, .f32⟩ : BufTy).Contents (Elt Ideal))
    (x4 : (⟨S1024x64, .f32⟩ : BufTy).Contents (Elt Ideal)) (bI : Fin 1024) (e : Fin 64) (k : Fin 64) :
    val_main_v22 (F := Ideal) x0 x1 x2 x4 (ix4 bI e (0 : Fin 1) k)
      = mixed (fun d => x4 (ix2 bI d)) (fun n d => x2 (ix4 bI e n d)) (fun n d => x1 (ix4 bI e n d))
          (fun d => x0 (ix4 bI e (0 : Fin 1) d)) k := by
  rw [val_main_v22_apply, val_main_v21_apply, val_main_v20_apply, val_main_cst_4_apply, Ideal.ofBits_def,
    Ideal.ofBits_zero_f32, zero_add, Ideal.addf_def]
  unfold mixed
  refine congrArg (_ + ·) (Finset.sum_congr rfl fun n _ => ?_)
  have hv : idx_main_v20 (idx_main_v21 (ix4 bI e (0 : Fin 1) k)) n = ix4 bI e n k :=
    funext fun a => by match a with | ⟨0, _⟩ => rfl | ⟨1, _⟩ => rfl | ⟨2, _⟩ => rfl | ⟨3, _⟩ => rfl
  have ha : idx_main_v17 (idx_main_v18 (ix4 bI e n k)) = ix3 bI e n :=
    funext fun a => by match a with | ⟨0, _⟩ => rfl | ⟨1, _⟩ => rfl | ⟨2, _⟩ => rfl
  rw [hv, val_main_v19_apply, val_main_v18_apply, val_main_v17_apply, ha, attn_at, Ideal.mulf_def]

/-- The output entry: the reference flattens the rows to a 65536 × 64 matrix, contracts it with the transposed weights,
    adds the broadcast bias, reshapes back and takes the maximum with 0. Read at (bI, e, j) the two reshapes cancel
    (`((bI·64 + e)·64 + j) / 64 = bI·64 + e`, remainder `j`; `((bI·64 + e)·64 + k)` splits back into `bI`, `e`, `k`), so the
    entry is `max (∑ k, mixed k · W j k + b j) 0`. -/
theorem out_at (x0 : (⟨S1024x64x1x64, .f32⟩ : BufTy).Contents (Elt Ideal)) (x1 x2 : (⟨S1024x64x32x64, .f32⟩ : BufTy).Contents (Elt Ideal))
    (x4 : (⟨S1024x64, .f32⟩ : BufTy).Contents (Elt Ideal)) (x5 : (⟨S64x64, .f32⟩ : BufTy).Contents (Elt Ideal))
    (x6 : (⟨S64, .f32⟩ : BufTy).Contents (Elt Ideal)) (bI : Fin 1024) (e : Fin 64) (j : Fin 64) :
    val_main_v30 (F := Ideal) x0 x1 x2 x4 x5 x6 (ix3 bI e j)
      = rowOut (fun d => x4 (ix2 bI d)) (fun n d => x2 (ix4 bI e n d)) (fun n d => x1 (ix4 bI e n d))
          (fun d => x0 (ix4 bI e (0 : Fin 1) d)) (fun j' k => x5 (ix2 j' k)) (fun j' => x6 (ix1 j')) j := by
  have hbI := bI.isLt
  have he := e.isLt
  have hj := j.isLt
  have hb : idx_main_v26 (idx_main_v27 (idx_main_v29 (ix3 bI e j))) = ix1 j :=
    funext fun a => Fin.ext (by
      match a with
      | ⟨0, _⟩ => show ((bI.val * 64 + e.val) * 64 + j.val) % 64 = j.val; omega)
  rw [val_main_v30_apply, val_main_call1_v0_apply, val_main_call1_cst_apply, val_main_v29_apply, val_main_v28_apply,
    val_main_v25_apply, val_main_v27_apply, val_main_v26_apply, hb, Ideal.ofBits_def, Ideal.ofBits_zero_f32,
    Ideal.maximumf_def, Ideal.addf_def]
  unfold rowOut
  refine congrArg (fun t => max (t + _) 0) (Finset.sum_congr rfl fun k _ => ?_)
  have hk := k.isLt
  have hl : idx_main_v23 (lidx_main_v25 (idx_main_v29 (ix3 bI e j)) k) = ix4 bI e (0 : Fin 1) k :=
    funext fun a => Fin.ext (by
      match a with
      | ⟨0, _⟩ => show (((bI.val * 64 + e.val) * 64 + j.val) / 64 * 64 + k.val) / 4096 = bI.val; omega
      | ⟨1, _⟩ => show (((bI.val * 64 + e.val) * 64 + j.val) / 64 * 64 + k.val) / 64 % 64 = e.val; omega
      | ⟨2, _⟩ => rfl
      | ⟨3, _⟩ => show (((bI.val * 64 + e.val) * 64 + j.val) / 64 * 64 + k.val) % 64 = k.val; omega)
  have hw : idx_main_v24 (ridx_main_v25 (idx_main_v29 (ix3 bI e j)) k) = ix2 j k :=
    funext fun a => Fin.ext (by
      match a with
      | ⟨0, _⟩ => show ((bI.val * 64 + e.val) * 64 + j.val) % 64 = j.val; omega
      | ⟨1, _⟩ => rfl)
  rw [val_main_v23_apply, val_main_v24_apply, hl, hw, mixed_at]

/-- The reference's result array is the row specification's array `G` of the argument arrays: index by index, the
    entry at (bI, e, j) is row (bI, e)'s result at j. -/
theorem val_main_v30_eq_G (x0 : (⟨S1024x64x1x64, .f32⟩ : BufTy).Contents (Elt Ideal)) (x1 x2 : (⟨S1024x64x32x64, .f32⟩ : BufTy).Contents (Elt Ideal)) (x4 : (⟨S1024x64, .f32⟩ : BufTy).Contents (Elt Ideal)) (x5 : (⟨S64x64, .f32⟩ : BufTy).Contents (Elt Ideal)) (x6 : (⟨S64, .f32⟩ : BufTy).Contents (Elt Ideal)) :
    val_main_v30 (F := Ideal) x0 x1 x2 x4 x5 x6 = Cert.Agg.G x0 x1 x2 x4 x5 x6 := by
  funext i
  obtain ⟨bI, e, j, rfl⟩ : ∃ (bI : Fin 1024) (e : Fin 64) (j : Fin 64), i = ix3 bI e j := ⟨i 0, i 1, i 2, eq_ix3 i⟩
  exact out_at x0 x1 x2 x4 x5 x6 bI e j

end Cert.ReferenceIdeal.RefRow

end
-- ==== Proof.lean ====
/-
  An attention-weighted neighbourhood aggregation followed by a linear layer and a rectifier, over f32[1024, 64, …]:
  for every (batch, entity) row, the user–relation scores ∑ d, u d · rel n d of its 32 neighbours; the weights e^score, dropped
  where a score is exactly 0; the attentions, the weights over their sum (over one where that sum is 0); the entity's own
  vector plus the attention-weighted sum of its neighbours' vectors; that mixed vector times Wᵀ plus b; the maximum with 0.

  The kernel computes this for 8 batch rows per grid point, 128 points, with the products against W taken on bf16-narrowed
  operands into a zero accumulator; the reference computes it for all 65536 rows at once, in f32. On the extended reals a
  narrowing is the identity, a matrix product into a zero accumulator is the plain contraction, and a reduction is the sum, so
  both programs compute ONE function of the argument arrays, `Cert.Agg.G` (Proof/RowSpec.lean), with the same sums in the same
  order and the same products in the same order: the only law used is 0 + x = x, and the inputs' finiteness is never needed.
  The reference's side is Proof/RefRow.lean (its stages read one row at a time); the kernel's is Proof/KernelRow.lean (the
  block the body leaves, entry by entry) and Proof/KernelArray.lean (block t is batch rows 8t … 8t + 7, and the blocks cover
  the output). The three frames are the programs' runs with the results forgotten; the idealization rewrote nothing.
-/
import proofs.«142219_j69200513073772_1_alg».proof.Defs
import proofs.«142219_j69200513073772_1_alg».proof.Proof.Gen.Kernel
import proofs.«142219_j69200513073772_1_alg».proof.Proof.Gen.Kernel.Skeleton
import proofs.«142219_j69200513073772_1_alg».proof.Proof.Gen.Kernel.Launch
import proofs.«142219_j69200513073772_1_alg».proof.Proof.Gen.Kernel.Points
import proofs.«142219_j69200513073772_1_alg».proof.Proof.Gen.Kernel.Frame
import proofs.«142219_j69200513073772_1_alg».proof.Proof.Gen.KernelIdeal
import proofs.«142219_j69200513073772_1_alg».proof.Proof.Gen.KernelIdeal.Skeleton
import proofs.«142219_j69200513073772_1_alg».proof.Proof.Gen.KernelIdeal.Launch
import proofs.«142219_j69200513073772_1_alg».proof.Proof.Gen.KernelIdeal.Points
import proofs.«142219_j69200513073772_1_alg».proof.Proof.Gen.KernelIdeal.Frame
import proofs.«142219_j69200513073772_1_alg».proof.Proof.Gen.ReferenceIdeal
import proofs.«142219_j69200513073772_1_alg».proof.Proof.Gen.Pre_finite_inputs
import proofs.«142219_j69200513073772_1_alg».proof.Proof.Gen.ReferenceIdeal.Run
import proofs.«142219_j69200513073772_1_alg».proof.Proof.Gen.ReferenceIdeal.Read
import proofs.«142219_j69200513073772_1_alg».proof.Proof.KernelArray
import proofs.«142219_j69200513073772_1_alg».proof.Proof.RefRow
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the output at the one function `Cert.Agg.G` of the
    arguments: the kernel's by its blocks, the reference's stage by stage. -/
theorem algebraic : Cert.algebraic_KernelIdeal_ReferenceIdeal := by
  intro m ρ m' ρ' _ hagree
  refine ⟨fun c => Cert.KernelIdeal.Arr.GV m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, _, h4, h5, h6⟩ := hagree c
  rw [Cert.ReferenceIdeal.Read.val_main_v30_eq, Cert.ReferenceIdeal.RefRow.val_main_v30_eq_G, h0, h1, h2, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
